-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def comparator_i32_d0 : BitVec 32 → BitVec 32 → BitVec 1 :=
  fun l r =>
    let v19 := IntOp.cmpi .slt l r
    v19
def fn_part1 {F : FTy → Type} [FloatOps F] (main_v13 : IVec S_ 1) (main_v16 : IVec S4096 1) (main_c_4 : IVec S_ 1) : IVec S_ 1 :=
  let main_v17 : IVec S_ 1 := (fun x v => Host.reduce IntOp.andi x v reducesTo_S4096_S_d0 h_S_) main_v16 main_c_4
  let main_v18 : IVec S_ 1 := andi main_v13 main_v17
  main_v18

def fn {F : FTy → Type} [FloatOps F] (main_arg0 : FVec F S4x2048x4096 .f32) (main_arg1 : IVec S4096x2048 32) (main_arg2 : FVec F S4096x32 .f32) (main_arg3 : IVec S4096 32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : IVec S4096 32 := (fun x => Host.sort S4096 0 comparator_i32_d0 x) main_arg3
  let main_v15 : IVec S4096 32 := iotaInDim S4096 32 0
  let main_v16 : IVec S4096 1 := cmpi .eq main_v14 main_v15
  let main_c_4 : IVec S_ 1 := constantI S_ 1 1#1
  fn_part1 (F := F) main_v13 main_v16 main_c_4
-- ==== Kernel.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩
abbrev S4096x1 : Shape := ⟨2, ![4096, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 49
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096, .i32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S_, .i32⟩
  | .hbm, ⟨15, _⟩ => ⟨S4096x2048, .i32⟩
  | .hbm, ⟨16, _⟩ => ⟨S4096x2048, .i32⟩
  | .hbm, ⟨17, _⟩ => ⟨S_, .i32⟩
  | .hbm, ⟨18, _⟩ => ⟨S4096x2048, .i32⟩
  | .hbm, ⟨19, _⟩ => ⟨S4096x2048, .i32⟩
  | .hbm, ⟨20, _⟩ => ⟨S4096x2048x1, .i32⟩
  | .hbm, ⟨21, _⟩ => ⟨S4096x2048x1, .i32⟩
  | .hbm, ⟨22, _⟩ => ⟨S4096x2048x2, .i32⟩
  | .hbm, ⟨23, _⟩ => ⟨S4096x4096, .i32⟩
  | .hbm, ⟨24, _⟩ => ⟨S4096x4096, .f32⟩
  | .hbm, ⟨25, _⟩ => ⟨S4096x32x128, .f32⟩
  | .hbm, ⟨26, _⟩ => ⟨S4096x32x1, .f32⟩
  | .hbm, ⟨27, _⟩ => ⟨S4096x32x128, .f32⟩
  | .hbm, ⟨28, _⟩ => ⟨S4096x32x128, .f32⟩
  | .hbm, ⟨29, _⟩ => ⟨S4096x4096, .f32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x4096, .f32⟩
  | .hbm, ⟨43, _⟩ => ⟨S4096x4096, .bf16⟩
  | .hbm, ⟨44, _⟩ => ⟨S8192x4096, .f32⟩
  | .hbm, ⟨45, _⟩ => ⟨S8192x4096, .bf16⟩
  | .hbm, ⟨46, _⟩ => ⟨S1x4096, .f32⟩
  | .hbm, ⟨47, _⟩ => ⟨S8192x4096, .f32⟩
  | .hbm, ⟨48, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1_0 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S4096x4096_S4096x1_S4096x4096_1_0_n_n_0_1_14096_wf : GatherDims.WF S4096x4096 S4096x1 S4096x4096 [1] [0] [] [0] [] 1 ![1, 4096]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v31) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x32 : Shape := ⟨2, ![4096, 32]⟩
abbrev S4096 : Shape := ⟨1, ![4096]⟩
abbrev S8192x4096 : Shape := ⟨2, ![8192, 4096]⟩
abbrev S_ : Shape := ⟨0, ![]⟩
abbrev S4096x1 : Shape := ⟨2, ![4096, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x32, .f32⟩
  | .hbm, ⟨3, _⟩ => ⟨S4096, .i32⟩
  | .hbm, ⟨4, _⟩ => ⟨S4096, .f32⟩
  | .hbm, ⟨5, _⟩ => ⟨S8192x4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S8192x4096, .f32⟩
  | .hbm, ⟨15, _⟩ => ⟨S_, .i32⟩
  | .hbm, ⟨16, _⟩ => ⟨S4096x2048, .i32⟩
  | .hbm, ⟨17, _⟩ => ⟨S4096x2048, .i32⟩
  | .hbm, ⟨18, _⟩ => ⟨S_, .i32⟩
  | .hbm, ⟨19, _⟩ => ⟨S4096x2048, .i32⟩
  | .hbm, ⟨20, _⟩ => ⟨S4096x2048, .i32⟩
  | .hbm, ⟨21, _⟩ => ⟨S_, .i32⟩
  | .hbm, ⟨22, _⟩ => ⟨S4096x2048, .i32⟩
  | .hbm, ⟨23, _⟩ => ⟨S4096x2048, .i32⟩
  | .hbm, ⟨24, _⟩ => ⟨S_, .i32⟩
  | .hbm, ⟨25, _⟩ => ⟨S4096x2048, .i32⟩
  | .hbm, ⟨26, _⟩ => ⟨S4096x2048, .i32⟩
  | .hbm, ⟨27, _⟩ => ⟨S_, .i32⟩
  | .hbm, ⟨28, _⟩ => ⟨S4096x2048, .i32⟩
  | .hbm, ⟨29, _⟩ => ⟨S4096x2048, .i32⟩
  | .hbm, ⟨30, _⟩ => ⟨S4096x2048x1, .i32⟩
  | .hbm, ⟨31, _⟩ => ⟨S4096x2048x1, .i32⟩
  | .hbm, ⟨32, _⟩ => ⟨S4096x2048x2, .i32⟩
  | .hbm, ⟨33, _⟩ => ⟨S4096x4096, .i32⟩
  | .hbm, ⟨34, _⟩ => ⟨S4096x4096, .f32⟩
  | .hbm, ⟨35, _⟩ => ⟨S4096x32x128, .f32⟩
  | .hbm, ⟨36, _⟩ => ⟨S4096x32x1, .f32⟩
  | .hbm, ⟨37, _⟩ => ⟨S4096x32x128, .f32⟩
  | .hbm, ⟨38, _⟩ => ⟨S4096x32x128, .f32⟩
  | .hbm, ⟨39, _⟩ => ⟨S4096x4096, .f32⟩
  | .hbm, ⟨40, _⟩ => ⟨S4096x4096, .f32⟩
  | .hbm, ⟨41, _⟩ => ⟨S8192x4096, .f32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8192x4096_S4096x1_S8192x4096_0_1_n_n_1_1_81921_wf : GatherDims.WF S8192x4096 S4096x1 S8192x4096 [0] [1] [] [1] [] 1 ![8192, 1]
  dot_S8192x4096_S4096x4096_S8192x4096_1_0_0_1_n_n_wf : DotDims.WF S8192x4096 S4096x4096 S8192x4096 [1] [0] [0] [1] [] []

variable [Facts₀]

def gather_S8192x4096_S4096x1_S8192x4096_0_1_n_n_1_1_81921 : GatherDims S8192x4096 S4096x1 S8192x4096 where
  offsetDims := [0]
  collapsedSliceDims := [1]
  operandBatchingDims := []
  startIndicesBatchingDims := []
  startIndexMap := [1]
  indexVectorDim := 1
  sliceSizes := ![8192, 1]
  wf := gather_S8192x4096_S4096x1_S8192x4096_0_1_n_n_1_1_81921_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.PreDecode.lean ====
/-
  What the precondition says of the permutation argument: its last conjunct is "every entry of the stably sorted
  table equals the entry of the identity table at the same index", so the table sorts to the identity table.
-/
import proofs.«418510_j67224828117444_1_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

instance : Subsingleton S_.Idx := ⟨fun a b => funext fun d => d.elim0⟩

/-- Under the precondition the permutation argument sorts to the identity table, index by index. -/
theorem sorted_of_pre (x0 : FVec Ideal S4x2048x4096 .f32) (x1 : IVec S4096x2048 32) (x2 : FVec Ideal S4096x32 .f32)
    (x3 : IVec S4096 32) (x4 : FVec Ideal S4096 .f32)
    (h : fn (F := Ideal) x0 x1 x2 x3 x4 = fun _ => 1#1) (j : S4096.Idx) :
    Host.sort S4096 0 comparator_i32_d0 x3 j = iotaInDim S4096 32 0 j := by
  have h1 := congrFun h ValueIdx.ix0
  dsimp only [fn, fn_part1] at h1
  have h2 := (IntOp.andi_eq_one.mp h1).2
  have h3 := Host.reduce_andi_all _ _ _ _ _ h2 j
  exact StableHlo.Predicate.cmpi_eq_iff.mp h3

end Cert.PreDecode

end
-- ==== Proof.SortInverse.lean ====
/-
  A rank-1 table p of n words that a stable sort turns into the identity table 0, 1, …, n - 1.

  The sort reads the table through a permutation sigma of the positions (sigma k is the position whose word
  lands at place k), so "sorted p = iota" says p (sigma k) = k for every place k: the table is the INVERSE of
  sigma. Since sigma is a bijection of the positions, every word of p is the place its position is sorted to, in
  particular smaller than n, and p itself is a bijection onto 0, …, n - 1.
  A two-operand sort whose comparator looks at the first operand only (an argsort: the second operand an iota)
  permutes both operands by the same sigma, so its second result at place k is the carried operand at sigma k.
-/
import Idealize.ShloMosaic.Lib.SortFacts
import Idealize.ShloMosaic.Lib.StableHlo.Predicate

noncomputable section

namespace Cert.SortInverse

open Idealize.ShloMosaic

variable {n : Nat}

/-- Position k goes before position k' when the comparator says so of the words there. -/
def before (cmp : BitVec 32 → BitVec 32 → BitVec 1) (p : IVec ⟨1, ![n]⟩ 32) (k k' : Fin n) : Bool :=
  cmp (p (Shape.Idx.ofFin k)) (p (Shape.Idx.ofFin k')) == 1#1

/-- sigma k: the position whose word the stable sort puts at place k. -/
def sigma (cmp : BitVec 32 → BitVec 32 → BitVec 1) (p : IVec ⟨1, ![n]⟩ 32) : Fin n → Fin n :=
  sortedFrom (before cmp p)

theorem sigma_bijective (cmp : BitVec 32 → BitVec 32 → BitVec 1) (p : IVec ⟨1, ![n]⟩ 32) :
    Function.Bijective (sigma cmp p) :=
  ⟨sortedFrom_injective _, sortedFrom_surjective _⟩

/-- sigma as a permutation of the positions. -/
def sigmaEquiv (cmp : BitVec 32 → BitVec 32 → BitVec 1) (p : IVec ⟨1, ![n]⟩ 32) : Fin n ≃ Fin n :=
  Equiv.ofBijective (sigma cmp p) (sigma_bijective cmp p)

/-- place i: the place the sort puts position i at (sigma's inverse). -/
def place (cmp : BitVec 32 → BitVec 32 → BitVec 1) (p : IVec ⟨1, ![n]⟩ 32) (i : Fin n) : Fin n :=
  (sigmaEquiv cmp p).symm i

theorem sigmaEquiv_apply (cmp : BitVec 32 → BitVec 32 → BitVec 1) (p : IVec ⟨1, ![n]⟩ 32) (k : Fin n) :
    sigmaEquiv cmp p k = sigma cmp p k := rfl

theorem sigma_place (cmp : BitVec 32 → BitVec 32 → BitVec 1) (p : IVec ⟨1, ![n]⟩ 32) (i : Fin n) :
    sigma cmp p (place cmp p i) = i :=
  (sigmaEquiv cmp p).apply_symm_apply i

theorem place_sigma (cmp : BitVec 32 → BitVec 32 → BitVec 1) (p : IVec ⟨1, ![n]⟩ 32) (k : Fin n) :
    place cmp p (sigma cmp p k) = k :=
  (sigmaEquiv cmp p).symm_apply_apply k

/-- The one-operand sort reads the table at sigma. -/
theorem sort_apply (cmp : BitVec 32 → BitVec 32 → BitVec 1) (p : IVec ⟨1, ![n]⟩ 32) (j : (⟨1, ![n]⟩ : Shape).Idx) :
    Host.sort ⟨1, ![n]⟩ 0 cmp p j = p (Shape.Idx.ofFin (sigma cmp p (j 0))) :=
  Host.sort_rank1 cmp p j

/-- A table that sorts to the identity table holds the word k at the position sorted to place k. -/
theorem table_at_sigma (cmp : BitVec 32 → BitVec 32 → BitVec 1) (p : IVec ⟨1, ![n]⟩ 32)
    (h : ∀ j, Host.sort ⟨1, ![n]⟩ 0 cmp p j = iotaInDim ⟨1, ![n]⟩ 32 0 j) (k : Fin n) :
    p (Shape.Idx.ofFin (sigma cmp p k)) = BitVec.ofNat 32 k.val := by
  have e := h (Shape.Idx.ofFin k)
  rw [sort_apply, Shape.Idx.ofFin_zero] at e
  exact e.trans (StableHlo.Predicate.iota_apply k)

/-- So the word at ANY position is the place that position is sorted to. -/
theorem table_apply (cmp : BitVec 32 → BitVec 32 → BitVec 1) (p : IVec ⟨1, ![n]⟩ 32)
    (h : ∀ j, Host.sort ⟨1, ![n]⟩ 0 cmp p j = iotaInDim ⟨1, ![n]⟩ 32 0 j) (i : Fin n) :
    p (Shape.Idx.ofFin i) = BitVec.ofNat 32 (place cmp p i).val := by
  have e := table_at_sigma cmp p h (place cmp p i)
  rwa [sigma_place] at e

/-- As a natural number it is that place (n words fit in 32 bits). -/
theorem table_toNat (cmp : BitVec 32 → BitVec 32 → BitVec 1) (p : IVec ⟨1, ![n]⟩ 32)
    (h : ∀ j, Host.sort ⟨1, ![n]⟩ 0 cmp p j = iotaInDim ⟨1, ![n]⟩ 32 0 j) (hn : n ≤ 2 ^ 32) (i : Fin n) :
    (p (Shape.Idx.ofFin i)).toNat = (place cmp p i).val := by
  rw [table_apply cmp p h i, BitVec.toNat_ofNat]
  exact Nat.mod_eq_of_lt (lt_of_lt_of_le (place cmp p i).isLt hn)

/-- The second result of a two-operand stable sort whose comparator looks at the first operand only: the carried
    operand read at sigma. -/
theorem sort2_snd_apply {β : Type} (cmp : BitVec 32 → BitVec 32 → BitVec 1)
    (cmp2 : BitVec 32 × β → BitVec 32 × β → BitVec 1) (hc : ∀ a b, cmp2 a b = cmp a.1 b.1)
    (p : IVec ⟨1, ![n]⟩ 32) (y : (⟨1, ![n]⟩ : Shape).Idx → β) (j : (⟨1, ![n]⟩ : Shape).Idx) :
    (Host.sort2 ⟨1, ![n]⟩ 0 cmp2 p y).2 j = y (Shape.Idx.ofFin (sigma cmp p (j 0))) := by
  have hb : (fun k k' : Fin n => cmp2 (p (Shape.Idx.ofFin k), y (Shape.Idx.ofFin k))
      (p (Shape.Idx.ofFin k'), y (Shape.Idx.ofFin k')) == 1#1) = before cmp p := by
    funext k k'
    simp only [hc, before]
  unfold Host.sort2
  simp [sigma, ← hb]

end Cert.SortInverse

end
-- ==== Proof.Contraction.lean ====
/-
  The function both programs compute, and the two laws of finite sums that join their two spellings of it.

  With X the activations as a matrix [8192, 4096] (rows are tokens), Wt the transposed dequantized weight
  [4096 (input feature), 4096 (output feature)], s a permutation of the input features and b the bias, the result at
  token r and output feature o is

      Y2 X Wt b s (r, o) = (sum over k of X(r, k) * Wt(s k, o)) + b(o).

  The kernel computes the sum in four blocks of 1024 input features, accumulated in order from zero: addition of
  extended reals is commutative and associative with zero neutral, so that is the whole sum (sum_blocks; no
  finiteness is needed). The reference gathers the activations instead of the weight: it sums X(r, t i) * Wt(i, o)
  over i, where t is the inverse of s; re-indexing the sum along the bijection s turns one into the other
  (sum_gathered).
-/
import Mathlib.Algebra.BigOperators.Fin
import Mathlib.Logic.Equiv.Fin.Basic
import Idealize.ShloMosaic.Lib.ValueIdx

noncomputable section

open scoped BigOperators

namespace Cert.Contraction

open Idealize.ShloMosaic Idealize.ShloMosaic.ValueIdx

/-- Input feature q of block b, when 4096 input features are cut into four blocks of 1024. -/
def blk (b : Fin 4) (q : Fin 1024) : Fin 4096 := ⟨b.val * 1024 + q.val, by omega⟩

theorem blk_val (b : Fin 4) (q : Fin 1024) : (blk b q).val = b.val * 1024 + q.val := rfl

/-- Four block sums, accumulated in order from zero, are the sum over the whole range. -/
theorem sum_blocks {A : Type*} [AddCommMonoid A] (f : Fin 4096 → A) :
    (((0 + ∑ q : Fin 1024, f (blk 0 q)) + ∑ q : Fin 1024, f (blk 1 q)) + ∑ q : Fin 1024, f (blk 2 q))
      + ∑ q : Fin 1024, f (blk 3 q) = ∑ k : Fin 4096, f k := by
  have e : ∑ k : Fin 4096, f k = ∑ b : Fin 4, ∑ q : Fin 1024, f (blk b q) := by
    rw [← Equiv.sum_comp (finProdFinEquiv (m := 4) (n := 1024)) f, Fintype.sum_prod_type]
    refine Finset.sum_congr rfl fun b _ => Finset.sum_congr rfl fun q _ => congrArg f (Fin.ext ?_)
    show q.val + 1024 * b.val = b.val * 1024 + q.val
    omega
  rw [e, Fin.sum_univ_four, zero_add]

/-- A sum whose first factor is read through the inverse t of a permutation s, re-indexed along s. -/
theorem sum_gathered {A : Type*} [AddCommMonoid A] {n : Nat} (s : Fin n ≃ Fin n) (t : Fin n → Fin n)
    (hts : ∀ k, t (s k) = k) (g : Fin n → Fin n → A) :
    ∑ i : Fin n, g (t i) i = ∑ k : Fin n, g k (s k) := by
  rw [← Equiv.sum_comp s (fun i => g (t i) i)]
  exact Finset.sum_congr rfl fun k _ => by rw [hts]

/-- The result at token r and output feature o: the product with the weight whose input features are permuted by s,
    plus the bias. -/
def Y2 (X : (⟨2, ![8192, 4096]⟩ : Shape).Idx → EReal) (Wt : (⟨2, ![4096, 4096]⟩ : Shape).Idx → EReal)
    (b : (⟨1, ![4096]⟩ : Shape).Idx → EReal) (s : Fin 4096 → Fin 4096) :
    (⟨2, ![8192, 4096]⟩ : Shape).Idx → EReal :=
  fun j => (∑ k : Fin 4096, X (ix2 (j 0) k) * Wt (ix2 (s k) (j 1))) + b (ix1 (j 1))

theorem Y2_apply (X : (⟨2, ![8192, 4096]⟩ : Shape).Idx → EReal) (Wt : (⟨2, ![4096, 4096]⟩ : Shape).Idx → EReal)
    (b : (⟨1, ![4096]⟩ : Shape).Idx → EReal) (s : Fin 4096 → Fin 4096) (r : Fin 8192) (o : Fin 4096) :
    Y2 X Wt b s (ix2 r o) = (∑ k : Fin 4096, X (ix2 r k) * Wt (ix2 (s k) o)) + b (ix1 o) := rfl

end Cert.Contraction

end
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.LibDot.lean ====
/-
  A plain matrix product read at an entry, at the ideal instance, over ANY dimension-number record whose fields are
  the plain ones ([1] x [0] contracted, [0] and [1] kept, no batch axes): the kernel's matmul into a zero accumulator and
  the host's dot_general are both the sum over k of a(r, k) * b(k, c), with k ranging over Fin K.

  eq_plain: a record with the plain fields IS DotDims.plain (the well-formedness proof is a proposition).
  plain_sum: the contraction sum of the plain record, re-indexed through its one coordinate.
  matmul_zero_at / dotGeneral_at: the two products at (r, c); kmatmul_at / hdot_at: the same over the printed spellings.
-/
import Idealize.ShloMosaic.Lib.ValueIdx
import Idealize.ShloMosaic.PureOps.Ideal.Laws

noncomputable section

open scoped BigOperators

namespace Cert.LibDot

open Idealize.ShloMosaic Idealize.ShloMosaic.ValueIdx

variable {M K N : Nat}

/-- A record whose six lists are the plain ones is the plain record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

theorem plain_rank : (DotDims.plain M K N).contr.rank = 1 := rfl

theorem plain_size : (DotDims.plain M K N).contr.size ⟨0, by rw [plain_rank]; exact Nat.one_pos⟩ = K := rfl

/-- The left operand's index at output (r, c) and contraction position k is (r, k). -/
theorem plain_lhsIdx (r : Fin M) (c : Fin N) (k : Fin K) :
    (DotDims.plain M K N).lhsIdx (ix2 r c) ((contrEquiv1 (DotDims.plain M K N) K plain_rank plain_size).symm k) = ix2 r k := by
  funext ax
  apply Fin.ext
  match ax with
  | ⟨0, _⟩ => rfl
  | ⟨1, _⟩ =>
    exact ((DotDims.plain M K N).lhsIdx_val_of_single (cl := 1) rfl _ _).trans
      (contrEquiv1_symm_val (DotDims.plain M K N) K plain_rank plain_size k)

/-- The right operand's index at output (r, c) and contraction position k is (k, c). -/
theorem plain_rhsIdx (r : Fin M) (c : Fin N) (k : Fin K) :
    (DotDims.plain M K N).rhsIdx (ix2 r c) ((contrEquiv1 (DotDims.plain M K N) K plain_rank plain_size).symm k) = ix2 k c := by
  funext ax
  apply Fin.ext
  match ax with
  | ⟨0, _⟩ =>
    exact ((DotDims.plain M K N).rhsIdx_val_of_single (cr := 0) rfl _ _).trans
      (contrEquiv1_symm_val (DotDims.plain M K N) K plain_rank plain_size k)
  | ⟨1, _⟩ => rfl

/-- The plain record's contraction sum at (r, c) is the sum over k : Fin K of a(r, k) * b(k, c). -/
theorem plain_sum {φ₁ φ₂ : FTy} (a : FVec Ideal ⟨2, ![M, K]⟩ φ₁) (b : FVec Ideal ⟨2, ![K, N]⟩ φ₂) (r : Fin M) (c : Fin N) :
    (∑ k : (DotDims.plain M K N).contr.Idx,
        a ((DotDims.plain M K N).lhsIdx (ix2 r c) k) * b ((DotDims.plain M K N).rhsIdx (ix2 r c) k) : EReal)
      = ∑ k : Fin K, a (ix2 r k) * b (ix2 k c) := by
  rw [← Equiv.sum_comp (contrEquiv1 (DotDims.plain M K N) K plain_rank plain_size).symm]
  refine Finset.sum_congr rfl fun k _ => ?_
  rw [plain_lhsIdx, plain_rhsIdx]

/-- The kernel's matrix product into a zero accumulator, at (r, c). -/
theorem matmul_zero_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    FloatOps.matmul d prec a b (constant ⟨2, ![M, N]⟩ .f32 0x00000000#32) (ix2 r c) = ∑ k : Fin K, a (ix2 r k) * b (ix2 k c) := by
  subst hd
  rw [Ideal.matmul_constant_zero_apply]
  exact plain_sum a b r c

/-- The host's dot_general, at (r, c). -/
theorem dotGeneral_at {φ₁ φ₂ : FTy} (d : DotDims ⟨2, ![M, K]⟩ ⟨2, ![K, N]⟩ ⟨2, ![M, N]⟩) (hd : d = DotDims.plain M K N)
    (prec : Option ContractPrecision) (sched : HostSchedule) (a : FVec Ideal ⟨2, ![M, K]⟩ φ₁) (b : FVec Ideal ⟨2, ![K, N]⟩ φ₂)
    (r : Fin M) (c : Fin N) :
    FloatOps.dotGeneral d prec sched a b (ix2 r c) = ∑ k : Fin K, a (ix2 r k) * b (ix2 k c) := by
  subst hd
  rw [Ideal.dotGeneral_apply]
  exact plain_sum a b r c

/-- The same, spelt with the kernel's vector operation. -/
theorem kmatmul_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    matmul d prec a b (constant ⟨2, ![M, N]⟩ .f32 0x00000000#32) (ix2 r c) = ∑ k : Fin K, a (ix2 r k) * b (ix2 k c) :=
  matmul_zero_at d hd prec a b r c

/-- The same, spelt with the host's operation. -/
theorem hdot_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    Host.dotGeneral d prec a b (ix2 r c) = ∑ k : Fin K, a (ix2 r k) * b (ix2 k c) :=
  dotGeneral_at d hd prec _ a b r c

end Cert.LibDot

end
-- ==== Proof.RefSide.lean ====
/-
  The reference program's result as the product Y2.

  The reference reshapes x to a matrix X [8192, 4096], wraps negative entries of perm, gathers X's columns at perm,
  multiplies by the transposed dequantized weight Wt and adds the bias. When perm sorts to the identity table every
  word of perm is the place its position is sorted to: non-negative and below 4096, so the wrap keeps it and the
  gather reads column (place i) unclamped; re-indexing the product's sum along the sorting permutation sigma, the
  inverse of place, moves the permutation from X's columns to Wt's rows.
-/
import proofs.«418510_j67224828117444_1_alg».proof.Proof.Gen.ReferenceIdeal.Read
import proofs.«418510_j67224828117444_1_alg».proof.Proof.SortInverse
import proofs.«418510_j67224828117444_1_alg».proof.Proof.Contraction
import proofs.«418510_j67224828117444_1_alg».proof.Proof.LibScatter
import proofs.«418510_j67224828117444_1_alg».proof.Proof.LibDot
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.RefSide

open Idealize.ShloMosaic Idealize.ShloMosaic.ValueIdx Cert.ReferenceIdeal Cert.ReferenceIdeal.Read
open Cert.SortInverse Cert.Contraction Cert.ReferenceIdeal.Facts₀

/-! ## The gather of columns read at an index -/

section GatherCols
variable {R N M : Nat} (d : GatherDims ⟨2, ![R, N]⟩ ⟨2, ![M, 1]⟩ ⟨2, ![R, M]⟩)
  (hoff : d.offsetDims = [0]) (hcoll : d.collapsedSliceDims = [1]) (hob : d.operandBatchingDims = [])
  (hsim : d.startIndexMap = [1]) (hivd : d.indexVectorDim = 1) (r : Fin R) (j : Fin M)
include hoff hcoll hob hsim hivd

/-- Result position (r, j) reads its start index at (j, 0) of the start indices. -/
theorem siIdx_cols (k : Fin d.startIndexMap.length) : d.siIdx (ix2 r j) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the row axis the offset coordinate is the result's row. -/
theorem offCoord_cols_zero : d.offCoord (ix2 r j) 0 = r.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherCols

/-- The gather of COLUMNS from [R, N], N < 2³¹, at 32-bit start indices [M, 1] (the column axis collapsed and
    start-indexed, the row axis the one offset axis, the index vector on axis 1), read at (r, j) when column j's
    start index is in range: the operand at row r, that column (in range nothing is clamped). -/
theorem gather_cols {α : Type} {R N M : Nat} (d : GatherDims ⟨2, ![R, N]⟩ ⟨2, ![M, 1]⟩ ⟨2, ![R, M]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![M, 1]⟩ 32) (hN : N < 2 ^ 31) (r : Fin R) (j : Fin M)
    (hr : (idx (ix2 j (0 : Fin 1))).toNat < N) :
    Host.gather d x idx (ix2 r j) = x (ix2 r ⟨(idx (ix2 j (0 : Fin 1))).toNat, hr⟩) := by
  have hb : ∀ a, a ∉ d.operandBatchingDims := by
    intro a
    rw [hob]
    exact List.not_mem_nil
  have hsl : d.sliceSizes 1 = 1 := d.slice_collapsed 1 (by rw [hcoll]; exact List.mem_singleton.mpr rfl)
  unfold Host.gather
  congr 1
  funext a
  apply Fin.ext
  revert a
  refine Fin.forall_fin_two.mpr ⟨?_, ?_⟩
  · show d.start (ix2 r j) idx 0 + d.batchCoord (ix2 r j) 0 + d.offCoord (ix2 r j) 0 = r.val
    rw [d.batchCoord_eq_zero _ _ (hb _), offCoord_cols_zero d hoff hcoll hob hsim hivd]
    unfold GatherDims.start
    rw [dif_neg (by rw [hsim]; simp)]
    omega
  · show d.start (ix2 r j) idx 1 + d.batchCoord (ix2 r j) 1 + d.offCoord (ix2 r j) 1
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_cols d hoff hcoll hob hsim hivd, hsl,
      StableHlo.Predicate.toInt_eq_toNat_of_lt (by omega), Int.toNat_natCast]
    show min (idx (ix2 j (0 : Fin 1))).toNat (N - 1) + 0 + 0 = _
    omega

/-! ## The reference's stages at the sorted table -/

/-- A rank-1 index written from its coordinate is the sorting library's. -/
theorem ix1_eq_ofFin {n : Nat} (k : Fin n) : (ix1 k : (⟨1, ![n]⟩ : Shape).Idx) = Shape.Idx.ofFin k := by
  funext a
  obtain rfl : a = 0 := Subsingleton.elim _ _
  rfl

section Stages
variable (cmp : BitVec 32 → BitVec 32 → BitVec 1)
  (x0 : (⟨S4x2048x4096, .f32⟩ : BufTy).Contents (Elt Ideal)) (x1 : (⟨S4096x2048, .i32⟩ : BufTy).Contents (Elt Ideal))
  (x2 : (⟨S4096x32, .f32⟩ : BufTy).Contents (Elt Ideal)) (x3 : (⟨S4096, .i32⟩ : BufTy).Contents (Elt Ideal))
  (hsort : ∀ j, Host.sort S4096 0 cmp x3 j = iotaInDim S4096 32 0 j)
include hsort

/-- Every word of the table is the number of its place, below 4096. -/
theorem table_word (k : Fin 4096) : x3 (ix1 k) = BitVec.ofNat 32 (place cmp x3 k).val := by
  rw [ix1_eq_ofFin]
  exact table_apply cmp x3 hsort k

/-- The wrapped table is the table: no word is negative, so the selection keeps each. -/
theorem wrapped_word (k : Fin 4096) :
    val_main_v6 (F := Ideal) x3 (ix2 k (0 : Fin 1)) = BitVec.ofNat 32 (place cmp x3 k).val := by
  have hi : idx_main_v6 (ix2 k (0 : Fin 1)) = ix1 k := by
    funext a
    match a with
    | ⟨0, _⟩ => rfl
  have hp : (place cmp x3 k).val < 4096 := (place cmp x3 k).isLt
  have hw := table_word cmp x3 hsort k
  rw [val_main_v6_apply, hi, val_main_v5_apply, val_main_v2_apply, val_main_v1_apply, val_main_c_apply, hw]
  have hn : (BitVec.ofNat 32 (place cmp x3 k).val).toNat = (place cmp x3 k).val := by
    rw [BitVec.toNat_ofNat]
    exact Nat.mod_eq_of_lt (by omega)
  have hc : IntOp.cmpi .slt (BitVec.ofNat 32 (place cmp x3 k).val) 0#32 = 0#1 := by
    refine eq_zero_of_ne_one fun h => ?_
    have hz : (0#32 : BitVec 32).toNat = 0 := rfl
    have hlt := (StableHlo.Predicate.slt_iff_toNat (by rw [hn]; omega) (by rw [hz]; decide)).mp h
    rw [hz] at hlt
    exact Nat.not_lt_zero _ hlt
  rw [hc, select_zero]

/-- The gathered activations at (r, k): the activations at row r, the column whose number the table holds at k. -/
theorem gathered_apply (r : Fin 8192) (k : Fin 4096) :
    val_main_v7 (F := Ideal) x0 x3 (ix2 r k) = val_main_v0 (F := Ideal) x0 (ix2 r (place cmp x3 k)) := by
  have hp : (place cmp x3 k).val < 4096 := (place cmp x3 k).isLt
  have hn : (val_main_v6 (F := Ideal) x3 (ix2 k (0 : Fin 1))).toNat = (place cmp x3 k).val := by
    rw [wrapped_word cmp x3 hsort k, BitVec.toNat_ofNat]
    exact Nat.mod_eq_of_lt (by omega)
  unfold val_main_v7
  rw [gather_cols gather_S8192x4096_S4096x1_S8192x4096_0_1_n_n_1_1_81921 rfl rfl rfl rfl rfl
    (val_main_v0 (F := Ideal) x0) (val_main_v6 (F := Ideal) x3) (by decide) r k (by rw [hn]; exact hp)]
  congr 2
  exact Fin.ext hn

/-- The product at (r, o): re-indexed along the sorting permutation, the weight's rows are permuted instead of the
    activations' columns. -/
theorem product_apply (r : Fin 8192) (o : Fin 4096) :
    val_main_v29 (F := Ideal) x0 x1 x2 x3 (ix2 r o)
      = ∑ k : Fin 4096, val_main_v0 (F := Ideal) x0 (ix2 r k)
          * val_main_v28 (F := Ideal) x1 x2 (ix2 (sigma cmp x3 k) o) := by
  have hl : ∀ k : Fin 4096, lidx_main_v29 (ix2 r o) k = ix2 r k := fun k => funext fun a =>
    match a with
    | ⟨0, _⟩ => rfl
    | ⟨1, _⟩ => rfl
  have hr : ∀ k : Fin 4096, ridx_main_v29 (ix2 r o) k = ix2 k o := fun k => funext fun a =>
    match a with
    | ⟨0, _⟩ => rfl
    | ⟨1, _⟩ => rfl
  have hts : ∀ k : Fin 4096, place cmp x3 (sigmaEquiv cmp x3 k) = k := fun k => by
    rw [sigmaEquiv_apply]
    exact place_sigma cmp x3 k
  rw [val_main_v29_apply]
  refine (Finset.sum_congr rfl fun k _ => ?_).trans
    ((sum_gathered (sigmaEquiv cmp x3) (place cmp x3) hts
      (fun a b => val_main_v0 (F := Ideal) x0 (ix2 r a) * val_main_v28 (F := Ideal) x1 x2 (ix2 b o))).trans
      (Finset.sum_congr rfl fun k _ => ?_))
  · rw [hl, hr, gathered_apply cmp x0 x3 hsort r k]
  · rw [sigmaEquiv_apply]

end Stages

theorem result_eq (cmp : BitVec 32 → BitVec 32 → BitVec 1)
    (x0 : (⟨S4x2048x4096, .f32⟩ : BufTy).Contents (Elt Ideal)) (x1 : (⟨S4096x2048, .i32⟩ : BufTy).Contents (Elt Ideal))
    (x2 : (⟨S4096x32, .f32⟩ : BufTy).Contents (Elt Ideal)) (x3 : (⟨S4096, .i32⟩ : BufTy).Contents (Elt Ideal))
    (x4 : (⟨S4096, .f32⟩ : BufTy).Contents (Elt Ideal))
    (hsort : ∀ j, Host.sort S4096 0 cmp x3 j = iotaInDim S4096 32 0 j) :
    val_main_v33 (F := Ideal) x0 x1 x2 x3 x4
      = shapeCast S4x2048x4096
          (Y2 (val_main_v0 (F := Ideal) x0) (val_main_v28 (F := Ideal) x1 x2) x4 (sigma cmp x3))
          shapeCasts_S8192x4096_S4x2048x4096 := by
  funext i
  have h0 : (i 0).val < 4 := (i 0).isLt
  have h1 : (i 1).val < 2048 := (i 1).isLt
  have h2 : (i 2).val < 4096 := (i 2).isLt
  -- the row-major position of i in [4, 2048, 4096] is that of (r, o) in [8192, 4096], and o is i's last coordinate
  obtain ⟨r, o, hj, ho⟩ : ∃ (r : Fin 8192) (o : Fin 4096), idx_main_v30 i = ix2 r o ∧ (i 2).val = o.val :=
    ⟨idx_main_v30 i 0, idx_main_v30 i 1, eq_ix2 (idx_main_v30 i), by
      show (i 2).val = (((i 0).val * 2048 + (i 1).val) * 4096 + (i 2).val) % 4096
      omega⟩
  have hb : idx_main_v31 (idx_main_v32 i) = ix1 o := by
    funext a
    match a with
    | ⟨0, _⟩ => exact Fin.ext ho
  rw [val_main_v33_apply, val_main_v30_apply, val_main_v32_apply, val_main_v31_apply, Ideal.addf_def,
    shapeCast_apply (Y2 (val_main_v0 (F := Ideal) x0) (val_main_v28 (F := Ideal) x1 x2) x4 (sigma cmp x3))
      shapeCasts_S8192x4096_S4x2048x4096 i (idx_main_v30 i)
      (by rewrite [Shape.rowMajor_val_two, Shape.rowMajor_val_three]; show (((i 0).val * 2048 + (i 1).val) * 4096 + (i 2).val) / 4096 * 4096 + (((i 0).val * 2048 + (i 1).val) * 4096 + (i 2).val) % 4096 = ((i 0).val * 2048 + (i 1).val) * 4096 + (i 2).val; omega),
    hj, product_apply cmp x0 x1 x2 x3 hsort, Y2_apply, hb]

end Cert.RefSide

end
-- ==== Proof.KernelPieces.lean ====
import proofs.«418510_j67224828117444_1_alg».proof.Proof.Gen.KernelIdeal.Frame
import Idealize.ShloMosaic.Lib.Pipeline.Value
import Idealize.ShloMosaic.Lib.Tactic

noncomputable section

namespace Cert.KernelPieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Case A (the first of four reduction steps): the scratch is reset to the zero block and then holds zero plus the
    product of the step's two input blocks: the accumulate step applied to the zero block. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- Case B (a middle step): the scratch holds what the step before left plus the product of the step's input blocks. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg7.read_unread, harg3.read_unread, harg4.read_unread,
    View.ld_unit_zero (S := S1024x1024) hz]

/-- Case C (the last step): the scratch is updated as in a middle step, -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread,
    View.ld_unit_zero (S := S1024x1024) hz]

/-- and the output block is that updated scratch plus the bias row broadcast down the rows. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg7.read_unread, harg3.read_unread, harg4.read_unread, harg5.read_unread,
    View.readCov_unit_zero (S := S1024x1024) _ hz, View.ld_unit_zero (S := S1024x1024) hz,
    View.ld_unit_zero (S := S1x1024) hz]

end Cert.KernelPieces

end
-- ==== Proof.KernelAcc.lean ====
/-
  The kernel's output array, read off the generated frame run.

  The grid has 128 points; point t = 16 i + 4 j + k computes, for row block i (1024 tokens) and column block j (1024
  output features), reduction step k over 1024 input features: the scratch accumulator is reset at k = 0, gains the
  product of the step's activation block and weight block at every step, and at k = 3 the output block is the
  accumulator plus the bias row, which is the only block written back. So the block written back at the last point of
  a group is, entry by entry, the ordered sum of four block products from zero plus the bias; the four blocks of 1024
  input features make up the whole range, so it is the whole product's entry (Contraction.sum_blocks), and the 32
  written blocks tile the array.
-/
import proofs.«418510_j67224828117444_1_alg».proof.Proof.Gen.KernelIdeal.Frame
import proofs.«418510_j67224828117444_1_alg».proof.Proof.KernelPieces
import proofs.«418510_j67224828117444_1_alg».proof.Proof.Contraction
import proofs.«418510_j67224828117444_1_alg».proof.Proof.LibDot
import Idealize.ShloMosaic.Lib.ValueIdx
import Idealize.ShloMosaic.Lib.Pipeline.Value
import Idealize.ShloMosaic.PureOps.Ideal.Laws
import Idealize.ShloMosaic.Lib.Tactic

noncomputable section

open scoped BigOperators

namespace Cert.KernelAcc

open Idealize.ShloMosaic Idealize.ShloMosaic.TcCoe Idealize.ShloMosaic.ValueIdx Idealize.SL.Sem
open Cert.KernelIdeal Cert.KernelIdeal.Gen Cert.KernelPieces Cert.Contraction

/-! ## The body's three payloads at an entry, over the extended reals -/

/-- The reset stores zero. -/
theorem pay1_apply (p q : Fin 1024) : k0_pay1 (F := Ideal) (ix2 p q) = 0 := by
  unfold k0_pay1
  rw [shapeCast_self]
  exact Ideal.ofBits_zero_f32

/-- The matrix product's dimension numbers are the plain ones. -/
theorem dot_plain : dot_S1024x1024_S1024x1024_S1024x1024_1_0_0_1_n_n = DotDims.plain 1024 1024 1024 :=
  Cert.LibDot.eq_plain _ rfl rfl rfl rfl rfl rfl

/-- The accumulate step: the accumulator's entry plus row p of the left block times column q of the right one. -/
theorem pay2_apply (acc : Vec Ideal S1024x1024 .f32) (a b : Vec Ideal S1024x1024 .bf16) (p q : Fin 1024) :
    k0_pay2 (F := Ideal) acc a b (ix2 p q) = acc (ix2 p q) + ∑ kk : Fin 1024, a (ix2 p kk) * b (ix2 kk q) := by
  unfold k0_pay2
  rw [shapeCast_self, shapeCast_self, shapeCast_self, addf_apply]
  exact congrArg (acc (ix2 p q) + ·) (Cert.LibDot.kmatmul_at _ dot_plain none a b p q)

/-- The final step adds the bias row's entry of the column. -/
theorem pay3_apply (acc : Vec Ideal S1024x1024 .f32) (bb : Vec Ideal S1x1024 .f32) (p q : Fin 1024) :
    k0_pay3 (F := Ideal) acc bb (ix2 p q) = acc (ix2 p q) + bb (ix2 (0 : Fin 1) q) := by
  unfold k0_pay3
  rw [shapeCast_self, addf_apply]
  refine congrArg (acc (ix2 p q) + ·) ?_
  refine broadcastTo_apply bb _ (ix2 p q) (ix2 (0 : Fin 1) q) fun a => ?_
  match a with
  | ⟨0, _⟩ => rfl
  | ⟨1, _⟩ => rfl

/-- Four accumulate steps from the reset, then the bias: the ordered sum of four block products plus the bias. -/
theorem group_value (a0 a1 a2 a3 b0 b1 b2 b3 : Vec Ideal S1024x1024 .bf16) (bb : Vec Ideal S1x1024 .f32)
    (p q : Fin 1024) :
    k0_pay3 (F := Ideal) (k0_pay2 (k0_pay2 (k0_pay2 (k0_pay2 (k0_pay1 (F := Ideal)) a0 b0) a1 b1) a2 b2) a3 b3) bb (ix2 p q)
      = ((((0 + ∑ kk : Fin 1024, a0 (ix2 p kk) * b0 (ix2 kk q)) + ∑ kk : Fin 1024, a1 (ix2 p kk) * b1 (ix2 kk q))
            + ∑ kk : Fin 1024, a2 (ix2 p kk) * b2 (ix2 kk q)) + ∑ kk : Fin 1024, a3 (ix2 p kk) * b3 (ix2 kk q))
          + bb (ix2 (0 : Fin 1) q) := by
  rw [pay3_apply, pay2_apply, pay2_apply, pay2_apply, pay2_apply, pay1_apply]

/-! ## The grid: point t = 16 i + 4 j + k runs row block i, column block j, reduction step k -/

variable (m : (ℓ : Loc nD τ sig) → Buf (Elt Ideal) ℓ)

/-- The four windows' block indices at point t, in closed form (decided over the 128 points). -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

theorem N128 : cfg0.N = 128 := N_0

/-- The activations, the permuted weight and the bias row as the region finds them, at their literal types. -/
abbrev Xv (c : Dev nD) : S8192x4096.Idx → EReal := V m c main_v31
abbrev Wv (c : Dev nD) : S4096x4096.Idx → EReal := V m c main_v29
abbrev Bv (c : Dev nD) : S1x4096.Idx → EReal := V m c main_v32

/-- The three input blocks of point t, at their literal types. -/
abbrev xblk (c : Dev nD) (t : Fin cfg0.N) : Vec Ideal S1024x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t

/-- The activations' block at point t: rows of row block t / 16, columns of reduction step t % 4. -/
theorem xblk_apply (c : Dev nD) (t : Fin cfg0.N) (p kk : Fin 1024) (r : Fin 8192) (k : Fin 4096)
    (hr : r.val = t.val / 16 * 1024 + p.val) (hk : k.val = t.val % 4 * 1024 + kk.val) :
    xblk m c t (ix2 p kk) = Xv m c (ix2 r k) := by
  obtain ⟨e0, e1, -⟩ := idx_facts t
  show V m c main_v31 (((cfg0.win 0).blk t).view.emb (ix2 p kk)) = V m c main_v31 (ix2 r k)
  refine congrArg (V m c main_v31 : S8192x4096.Idx → EReal) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * kk.val = k.val; rw [e1, hk]; omega

/-- The weight's block at point t: rows of reduction step t % 4, columns of column block t / 4 % 4. -/
theorem wblk_apply (c : Dev nD) (t : Fin cfg0.N) (kk q : Fin 1024) (k o : Fin 4096)
    (hk : k.val = t.val % 4 * 1024 + kk.val) (ho : o.val = t.val / 4 % 4 * 1024 + q.val) :
    wblk m c t (ix2 kk q) = Wv m c (ix2 k o) := by
  obtain ⟨-, -, e0, e1, -⟩ := idx_facts t
  show V m c main_v29 (((cfg0.win 1).blk t).view.emb (ix2 kk q)) = V m c main_v29 (ix2 k o)
  refine congrArg (V m c main_v29 : S4096x4096.Idx → EReal) (funext fun a => Fin.ext ?_)
  match a with
  | ⟨0, _⟩ => show win0_1.index t (0 : Fin 2) * 1024 + 1 * kk.val = k.val; rw [e0, hk]; omega
  | ⟨1, _⟩ => show win0_1.index t (1 : Fin 2) * 1024 + 1 * q.val = o.val; rw [e1, ho]; omega

/-- The bias row's block at point t: columns of column block t / 4 % 4. -/
theorem bblk_apply (c : Dev nD) (t : Fin cfg0.N) (q : Fin 1024) (o : Fin 4096)
    (ho : o.val = t.val / 4 % 4 * 1024 + q.val) :
    bblk m c t (ix2 (0 : Fin 1) q) = Bv m c (ix2 (0 : Fin 1) o) := by
  obtain ⟨-, -, -, -, e0, e1, -⟩ := idx_facts t
  show V m c main_v32 (((cfg0.win 2).blk t).view.emb (ix2 (0 : Fin 1) q)) = V m c main_v32 (ix2 (0 : Fin 1) o)
  refine congrArg (V m c main_v32 : S1x4096.Idx → EReal) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = o.val; rw [e1, ho]; omega

/-! ## The accumulator through the four points of one reduction group -/

/-- After the group's first point (reset, one step). -/
theorem acc0 (c : Dev nD) (t : Fin cfg0.N) (h0 : t.val % 4 = 0) :
    (outsAt0 m c t.val t.isLt).2 = k0_pay2 (k0_pay1 (F := Ideal)) (xblk m c t) (wblk m c t) := by
  have h1 : ¬t.val % 4 = 3 := by omega
  rw [outsAt0_A m c t h0 h1]
  dsimp only
  exact scratch_A (F := Ideal) c (grid0.coords t) (ms0_0 t) (hs0_0 t) (ms0_1 t) (hs0_1 t) (ms0_2 t) (hs0_2 t)
    (ms0_3 t) (hs0_3 t) scM0_0 (Memref.isWhole_whole _) _ _ (iblk m c 0 t) (iblk m c 1 t) (iblk m c 2 t)

/-- After a middle point: one more step on what the point before left. -/
theorem accB (c : Dev nD) (t : Fin cfg0.N) (h0 : ¬t.val % 4 = 0) (h1 : ¬t.val % 4 = 3) :
    (outsAt0 m c t.val t.isLt).2
      = k0_pay2 (outsAt0 m c (t.val - 1) (Nat.lt_of_le_of_lt (Nat.sub_le _ _) t.isLt)).2 (xblk m c t) (wblk m c t) := by
  rw [outsAt0_B m c t h0 h1]
  dsimp only
  exact scratch_B (F := Ideal) c (grid0.coords t) (ms0_0 t) (hs0_0 t) (ms0_1 t) (hs0_1 t) (ms0_2 t) (hs0_2 t)
    (ms0_3 t) (hs0_3 t) scM0_0 (Memref.isWhole_whole _) _ _ (iblk m c 0 t) (iblk m c 1 t) (iblk m c 2 t)
    (outsAt0 m c (t.val - 1) (Nat.lt_of_le_of_lt (Nat.sub_le _ _) t.isLt)).2

/-- After the group's last point the output block is one more step on what the point before left, plus the bias. -/
theorem outC (c : Dev nD) (t : Fin cfg0.N) (h0 : ¬t.val % 4 = 0) (h1 : t.val % 4 = 3) :
    (outsAt0 m c t.val t.isLt).1
      = k0_pay3 (k0_pay2 (outsAt0 m c (t.val - 1) (Nat.lt_of_le_of_lt (Nat.sub_le _ _) t.isLt)).2 (xblk m c t) (wblk m c t))
          (bblk m c t) := by
  rw [outsAt0_C m c t h0 h1]
  dsimp only
  exact out_C (F := Ideal) c (grid0.coords t) (ms0_0 t) (hs0_0 t) (ms0_1 t) (hs0_1 t) (ms0_2 t) (hs0_2 t)
    (ms0_3 t) (hs0_3 t) scM0_0 (Memref.isWhole_whole _) _ _ (iblk m c 0 t) (iblk m c 1 t) (iblk m c 2 t)
    (outsAt0 m c (t.val - 1) (Nat.lt_of_le_of_lt (Nat.sub_le _ _) t.isLt)).2

/-- The point before t. -/
def prev (t : Fin cfg0.N) : Fin cfg0.N := ⟨t.val - 1, Nat.lt_of_le_of_lt (Nat.sub_le _ _) t.isLt⟩

theorem prev_val (t : Fin cfg0.N) : (prev t).val = t.val - 1 := rfl

/-- The output block a group's last point leaves: four steps from the reset over the group's four points, plus the bias. -/
theorem out_group (c : Dev nD) (t : Fin cfg0.N) (h3 : t.val % 4 = 3) :
    (outsAt0 m c t.val t.isLt).1
      = k0_pay3 (k0_pay2 (k0_pay2 (k0_pay2 (k0_pay2 (k0_pay1 (F := Ideal))
            (xblk m c (prev (prev (prev t)))) (wblk m c (prev (prev (prev t)))))
            (xblk m c (prev (prev t))) (wblk m c (prev (prev t))))
            (xblk m c (prev t)) (wblk m c (prev t)))
            (xblk m c t) (wblk m c t)) (bblk m c t) := by
  have e2 : (outsAt0 m c (prev t).val (prev t).isLt).2
      = k0_pay2 (outsAt0 m c (prev (prev t)).val (prev (prev t)).isLt).2 (xblk m c (prev t)) (wblk m c (prev t)) :=
    accB m c (prev t) (by rw [prev_val]; omega) (by rw [prev_val]; omega)
  have e1 : (outsAt0 m c (prev (prev t)).val (prev (prev t)).isLt).2
      = k0_pay2 (outsAt0 m c (prev (prev (prev t))).val (prev (prev (prev t))).isLt).2
          (xblk m c (prev (prev t))) (wblk m c (prev (prev t))) :=
    accB m c (prev (prev t)) (by rw [prev_val, prev_val]; omega) (by rw [prev_val, prev_val]; omega)
  have e0 := acc0 m c (prev (prev (prev t))) (by rw [prev_val, prev_val, prev_val]; omega)
  have e3 : (outsAt0 m c t.val t.isLt).1
      = k0_pay3 (k0_pay2 (outsAt0 m c (prev t).val (prev t).isLt).2 (xblk m c t) (wblk m c t)) (bblk m c t) :=
    outC m c t (by omega) h3
  rw [e3, e2, e1, e0]

/-! ## What the output array ends holding -/

/-- An entry of the result array lies in point t's block iff each coordinate is in the block's range. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v33).slice (win0_3.rect t)).set ↔ _
  rw [View.set_slice_whole, Rect.mem_set_unit]
  exact Iff.rfl

/-- Every entry of the result array is in the block of some flushing point: the last point of the group of its row
    block and column block. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hlt : (i 0).val / 1024 * 16 + (i 1).val / 1024 * 4 + 3 < cfg0.N := by rw [N128]; omega
  obtain ⟨t, ht⟩ : ∃ t : Fin cfg0.N, t.val = (i 0).val / 1024 * 16 + (i 1).val / 1024 * 4 + 3 := ⟨⟨_, hlt⟩, rfl⟩
  refine ⟨t, (flush0_3 t).mpr (by omega), ?_⟩
  obtain ⟨-, -, -, -, -, -, e0, e1⟩ := idx_facts t
  rw [mem_blk]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

section Final

variable (c : Dev nD) (X0 : S8192x4096.Idx → EReal) (Wt : S4096x4096.Idx → EReal) (b : S4096.Idx → EReal)
  (s : Fin 4096 → Fin 4096)
  (HX : Xv m c = X0) (HW : ∀ k o : Fin 4096, Wv m c (ix2 k o) = Wt (ix2 (s k) o))
  (HB : ∀ o : Fin 4096, Bv m c (ix2 (0 : Fin 1) o) = b (ix1 o))
include HX HW HB

/-- The entry (p, q) of the block a group's last point t leaves is the whole product's entry at row
    (t / 16) * 1024 + p and column (t / 4 % 4) * 1024 + q, plus the bias there. -/
theorem out_entry (t : Fin cfg0.N) (h3 : t.val % 4 = 3) (p q : Fin 1024) (r : Fin 8192) (o : Fin 4096)
    (hr : r.val = t.val / 16 * 1024 + p.val) (ho : o.val = t.val / 4 % 4 * 1024 + q.val) :
    (outsAt0 m c t.val t.isLt).1 (ix2 p q) = Y2 X0 Wt b s (ix2 r o) := by
  have hN : t.val < 128 := lt_of_lt_of_eq t.isLt N128
  rw [out_group m c t h3]
  refine (group_value (xblk m c (prev (prev (prev t)))) (xblk m c (prev (prev t))) (xblk m c (prev t)) (xblk m c t)
    (wblk m c (prev (prev (prev t)))) (wblk m c (prev (prev t))) (wblk m c (prev t)) (wblk m c t) (bblk m c t) p q).trans ?_
  rw [Y2_apply, ← sum_blocks (fun k : Fin 4096 => X0 (ix2 r k) * Wt (ix2 (s k) o))]
  have hb : bblk m c t (ix2 (0 : Fin 1) q) = b (ix1 o) := (bblk_apply m c t q o ho).trans (HB o)
  have hs : ∀ (u : Fin cfg0.N) (g : Fin 4), u.val / 16 = t.val / 16 → u.val / 4 % 4 = t.val / 4 % 4 → u.val % 4 = g.val →
      ∑ kk : Fin 1024, xblk m c u (ix2 p kk) * wblk m c u (ix2 kk q)
        = ∑ kk : Fin 1024, X0 (ix2 r (blk g kk)) * Wt (ix2 (s (blk g kk)) o) := by
    intro u g hu1 hu2 hu3
    refine Finset.sum_congr rfl fun kk _ => ?_
    rw [xblk_apply m c u p kk r (blk g kk) (by rw [hr, hu1]) (by rw [blk_val, hu3]),
      wblk_apply m c u kk q (blk g kk) o (by rw [blk_val, hu3]) (by rw [ho, hu2]), HX, HW]
  rw [hs (prev (prev (prev t))) 0 (by rw [prev_val, prev_val, prev_val]; omega) (by rw [prev_val, prev_val, prev_val]; omega)
      (by rw [prev_val, prev_val, prev_val]; show _ = 0; omega),
    hs (prev (prev t)) 1 (by rw [prev_val, prev_val]; omega) (by rw [prev_val, prev_val]; omega)
      (by rw [prev_val, prev_val]; show _ = 1; omega),
    hs (prev t) 2 (by rw [prev_val]; omega) (by rw [prev_val]; omega) (by rw [prev_val]; show _ = 2; omega),
    hs t 3 rfl rfl (by show _ = 3; omega), hb]

/-- What a flushing point writes back is its block of the whole result. -/
theorem flushed_eq (t : Fin cfg0.N) (hf : (cfg0.win 3).flush t = true) :
    (dats m 0 c).flushed 3 t = ((cfg0.win 3).blk t).view.read (Elt Ideal) (Y2 X0 Wt b s) := by
  have h3 : t.val % 4 = 3 := (flush0_3 t).mp hf
  have hN : t.val < 128 := lt_of_lt_of_eq t.isLt N128
  obtain ⟨-, -, -, -, -, -, e0, e1⟩ := idx_facts t
  show (cfg0.win 3).cut (grid0.coords t) ((dats m 0 c).after 3 t) = _
  rw [after0_3]
  refine funext fun (j : S1024x1024.Idx) => ?_
  have hj0 : (j 0).val < 1024 := (j 0).isLt
  have hj1 : (j 1).val < 1024 := (j 1).isLt
  show (outsAt0 m c t.val t.isLt).1 j = Y2 X0 Wt b s (((cfg0.win 3).blk t).view.emb j)
  have he : ((cfg0.win 3).blk t).view.emb j
      = ix2 (⟨t.val / 16 * 1024 + (j 0).val, by omega⟩ : Fin 8192) (⟨t.val / 4 % 4 * 1024 + (j 1).val, by omega⟩ : Fin 4096) := by
    funext a
    apply Fin.ext
    match a with
    | ⟨0, _⟩ => show win0_3.index t (0 : Fin 2) * 1024 + 1 * (j 0).val = t.val / 16 * 1024 + (j 0).val; rw [e0]; omega
    | ⟨1, _⟩ => show win0_3.index t (1 : Fin 2) * 1024 + 1 * (j 1).val = t.val / 4 % 4 * 1024 + (j 1).val; rw [e1]; omega
  rw [he]
  exact (congrArg (outsAt0 m c t.val t.isLt).1 (eq_ix2 j)).trans
    (out_entry m c X0 Wt b s HX HW HB t h3 (j 0) (j 1) _ _ rfl rfl)

/-- The result array after the run: the whole product with the permuted weight, plus the bias. -/
theorem final : (dats m 0 c).arrAt 3 cfg0.N = Y2 X0 Wt b s :=
  (dats m 0 c).arrAt_eq_of_cover 3 (Y2 X0 Wt b s) (flushed_eq m c X0 Wt b s HX HW HB) cover

end Final

end Cert.KernelAcc

end
-- ==== Proof.KernelHost.lean ====
/-
  The arrays the kernel's region finds, in the reference's own words.

  Before its one pallas_call the kernel program dequantizes the weight by the same operations as the reference,
  argsorts the permutation argument (the second result of a stable two-operand sort of the permutation paired with the
  positions, compared on the first component), transposes the weight and gathers its ROWS at that argsort, and
  reshapes x to a matrix and the bias to a row; the conversions to a narrower float format are the identity over the
  extended reals. The argsort at place k is the position sigma k the sort puts there, a number below 4096: the
  negative-index wrap keeps it and the gather reads row sigma k unclamped.
-/
import proofs.«418510_j67224828117444_1_alg».proof.Proof.Gen.KernelIdeal.Frame
import proofs.«418510_j67224828117444_1_alg».proof.Proof.Gen.ReferenceIdeal.Read
import proofs.«418510_j67224828117444_1_alg».proof.Proof.SortInverse
import proofs.«418510_j67224828117444_1_alg».proof.Proof.LibScatter
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.Tactic

noncomputable section

namespace Cert.KernelHost

open Idealize.ShloMosaic Idealize.ShloMosaic.TcCoe Idealize.ShloMosaic.ValueIdx Idealize.SL.Sem
open Cert.KernelIdeal Cert.KernelIdeal.Gen Cert.SortInverse

variable (m : (ℓ : Loc nD τ sig) → Buf (Elt Ideal) ℓ)

/-! ## Words and the wrapped row gather, over arbitrary operands -/

/-- A 32-bit word that is a natural number below 4096 is not negative read signed: the select that wraps
    negative indices keeps it. -/
theorem select_keep (w : BitVec 32) (s : Nat) (hs : s < 4096) (hw : w = BitVec.ofNat 32 s) :
    Scalar.select (IntOp.cmpi .slt w 0#32) (IntOp.addi w 4096#32) w = w := by
  subst hw
  have h : IntOp.cmpi .slt (BitVec.ofNat 32 s) 0#32 = 0#1 := by
    apply eq_zero_of_ne_one
    intro h1
    have := (StableHlo.Predicate.slt_ofNat_iff s 0 (by omega) (by norm_num)).mp h1
    omega
  rw [h, select_zero]

/-- The wrapped, row-gathered, converted weight over an arbitrary index vector and matrix, read at (k, o) when the
    index vector holds at k a natural number s below 4096: row s of the matrix, column o. -/
theorem gathered_apply (inv : IVec S4096 32) (wt : FVec Ideal S4096x4096 .f32) (k o s : Fin 4096)
    (hs : inv (ix1 k) = BitVec.ofNat 32 s.val) :
    (truncf .bf16 (Host.gather gather_S4096x4096_S4096x1_S4096x4096_1_0_n_n_0_1_14096 wt
        (broadcastInDim S4096x1 ![0] bcast_S4096_S4096x1_0
          (select (cmpi .slt inv (broadcastInDim S4096 ![] bcast_S_S4096 (constantI S_ 32 0#32)))
            (addi inv (broadcastInDim S4096 ![] bcast_S_S4096 (constantI S_ 32 4096#32))) inv)))
        bitsLt_bf16_f32 : FVec Ideal S4096x4096 .bf16) (ix2 k o) = wt (ix2 s o) := by
  rw [truncf_apply]
  have hidx : (broadcastInDim S4096x1 ![0] bcast_S4096_S4096x1_0
          (select (cmpi .slt inv (broadcastInDim S4096 ![] bcast_S_S4096 (constantI S_ 32 0#32)))
            (addi inv (broadcastInDim S4096 ![] bcast_S_S4096 (constantI S_ 32 4096#32))) inv)
          : IVec S4096x1 32) (ix2 k (0 : Fin 1)) = BitVec.ofNat 32 s.val := by
    rw [broadcastInDim_apply ![0] bcast_S4096_S4096x1_0 _ (ix2 k (0 : Fin 1)) (ix1 k) (fun a => by
      obtain rfl : a = 0 := Subsingleton.elim _ _
      show k.val = if (4096 : Nat) = 1 then 0 else k.val
      rw [if_neg (by decide)])]
    show Scalar.select (IntOp.cmpi .slt (inv (ix1 k)) 0#32) (IntOp.addi (inv (ix1 k)) 4096#32) (inv (ix1 k)) = _
    rw [select_keep (inv (ix1 k)) s.val s.isLt hs, hs]
  have hr : ((broadcastInDim S4096x1 ![0] bcast_S4096_S4096x1_0
          (select (cmpi .slt inv (broadcastInDim S4096 ![] bcast_S_S4096 (constantI S_ 32 0#32)))
            (addi inv (broadcastInDim S4096 ![] bcast_S_S4096 (constantI S_ 32 4096#32))) inv)
          : IVec S4096x1 32) (ix2 k (0 : Fin 1))).toNat < 4096 := by
    rw [hidx, BitVec.toNat_ofNat]
    have := s.isLt
    omega
  rw [Cert.LibScatter.gather_rows gather_S4096x4096_S4096x1_S4096x4096_1_0_n_n_0_1_14096 rfl rfl rfl rfl rfl wt _
    (by norm_num) k o hr]
  refine congrArg wt (congrArg (fun r => ix2 r o) (Fin.ext ?_))
  show (_ : BitVec 32).toNat = s.val
  rw [hidx, BitVec.toNat_ofNat]
  have := s.isLt
  omega

/-! ## The host operations before the region, one stretch at a time, from arbitrary contents -/

section Stages
variable {F : FTy → Type} [FloatOps F]
open Idealize.ShloMosaic.StableHlo

/-- The first stretch leaves in main_v19 the dequantized weight of its two arguments. -/
theorem after0_v19 (M : Valuation τ sig (Elt F)) :
    (after (hostOps0 (F := F)) M (Proc.devRef .tc main_v19) : (⟨S4096x4096, .f32⟩ : BufTy).Contents (Elt F))
      = Cert.ReferenceIdeal.Read.val_main_v27 (F := F) (M (Proc.devRef .tc main_arg1)) (M (Proc.devRef .tc main_arg2)) := by
  simp only [hostOps0]
  after_results_simp
  rfl

/-- The first stretch does not write the permutation. -/
theorem after0_arg3 (M : Valuation τ sig (Elt F)) :
    after (hostOps0 (F := F)) M (Proc.devRef .tc main_arg3) = M (Proc.devRef .tc main_arg3) := by
  simp only [hostOps0]
  after_results_simp

/-- The second stretch leaves in main_v20 the second result of the stable sort of the permutation paired with the
    positions. -/
theorem after1_v20 (X : Valuation τ sig (Elt F)) :
    (after (hostOps0_1 (F := F)) X (Proc.devRef .tc main_v20) : (⟨S4096, .i32⟩ : BufTy).Contents (Elt F))
      = (Host.sort2 S4096 0 comparator_i32_i32_d0
          (X (Proc.devRef .tc main_arg3) : (⟨S4096, .i32⟩ : BufTy).Contents (Elt F)) (iotaInDim S4096 32 0)).2 := by
  simp only [hostOps0_1]
  after_results
  rfl

/-- The second stretch does not write the dequantized weight. -/
theorem after1_v19 (X : Valuation τ sig (Elt F)) :
    after (hostOps0_1 (F := F)) X (Proc.devRef .tc main_v19) = X (Proc.devRef .tc main_v19) := by
  simp only [hostOps0_1]
  after_results

/-- The third stretch leaves in main_v29 the rows of the transposed weight gathered at the wrapped sort result. -/
theorem after2_v29 (W : Valuation τ sig (Elt F)) :
    (after (hostOps0_2 (F := F)) W (Proc.devRef .tc main_v29) : (⟨S4096x4096, .bf16⟩ : BufTy).Contents (Elt F))
      = truncf .bf16 (Host.gather gather_S4096x4096_S4096x1_S4096x4096_1_0_n_n_0_1_14096
          (transpose S4096x4096 [1, 0] (W (Proc.devRef .tc main_v19) : (⟨S4096x4096, .f32⟩ : BufTy).Contents (Elt F)) transposes_S4096x4096_S4096x4096_1_0)
          (broadcastInDim S4096x1 ![0] bcast_S4096_S4096x1_0
            (select (cmpi .slt (W (Proc.devRef .tc main_v20) : (⟨S4096, .i32⟩ : BufTy).Contents (Elt F)) (broadcastInDim S4096 ![] bcast_S_S4096 (constantI S_ 32 0#32)))
              (addi (W (Proc.devRef .tc main_v20) : (⟨S4096, .i32⟩ : BufTy).Contents (Elt F)) (broadcastInDim S4096 ![] bcast_S_S4096 (constantI S_ 32 4096#32)))
              (W (Proc.devRef .tc main_v20) : (⟨S4096, .i32⟩ : BufTy).Contents (Elt F))))) bitsLt_bf16_f32 := by
  simp only [hostOps0_2]
  after_results

/-- The contents when the region is entered are the three stretches run in turn. -/
theorem V0_stages (m : (ℓ : Loc nD τ sig) → Buf (Elt F) ℓ) (c : Dev nD) :
    V0 m c = after hostOps0_2 (after hostOps0_1 (after hostOps0 (fun b => m (c, b)))) := by
  dsimp only [V0]
  simp only [List.flatten_cons, List.flatten_nil, List.append_nil]
  rw [StableHlo.after_append, StableHlo.after_append]

end Stages

/-! ## The three windows' arrays -/

/-- The activations the region finds are the reference's x reshaped to a matrix. -/
theorem V_x (c : Dev nD) :
    (V m c main_v31 : S8192x4096.Idx → EReal)
      = Cert.ReferenceIdeal.Read.val_main_v0 (F := Ideal) (m ((c : Thread nD τ).loc main_arg0)) := by
  have e : (V m c main_v31 : S8192x4096.Idx → EReal)
      = truncf (F := Ideal) .bf16 (shapeCast S8192x4096 (m ((c : Thread nD τ).loc main_arg0)) shapeCasts_S4x2048x4096_S8192x4096) bitsLt_bf16_f32 := by
    dsimp only [V, V0]
    simp only [hostOps0, hostOps0_1, hostOps0_2, List.flatten_cons, List.flatten_nil, List.append_nil, List.cons_append, List.nil_append]
    after_results
    rfl
  rw [e]
  rfl

/-- The weight the region finds at (k, o) is the reference's transposed dequantized weight at (sigma k, o). -/
theorem V_w (c : Dev nD) (cmp : BitVec 32 → BitVec 32 → BitVec 1)
    (hc : ∀ a b : BitVec 32 × BitVec 32, comparator_i32_i32_d0 a b = cmp a.1 b.1)
    (hsort : ∀ j, Host.sort S4096 0 cmp (m ((c : Thread nD τ).loc main_arg3)) j = iotaInDim S4096 32 0 j)
    (k o : Fin 4096) :
    (V m c main_v29 : S4096x4096.Idx → EReal) (ix2 k o)
      = Cert.ReferenceIdeal.Read.val_main_v28 (F := Ideal) (m ((c : Thread nD τ).loc main_arg1))
          (m ((c : Thread nD τ).loc main_arg2)) (ix2 (sigma cmp (m ((c : Thread nD τ).loc main_arg3)) k) o) := by
  have e : (V m c main_v29 : S4096x4096.Idx → EReal)
      = StableHlo.after hostOps0_2 (StableHlo.after hostOps0_1 (StableHlo.after hostOps0 (fun b => m (c, b))))
          (Proc.devRef .tc main_v29) := by
    dsimp only [V]
    rw [V0_stages]
  rw [e, after2_v29]
  refine (gathered_apply _ _ k o (sigma cmp (m ((c : Thread nD τ).loc main_arg3)) k) ?_).trans ?_
  · rw [after1_v20, after0_arg3]
    refine (sort2_snd_apply cmp comparator_i32_i32_d0 hc (m ((c : Thread nD τ).loc main_arg3))
      (iotaInDim S4096 32 0) (ix1 k)).trans ?_
    show iotaInDim S4096 32 0 (Shape.Idx.ofFin (sigma cmp (m ((c : Thread nD τ).loc main_arg3)) k)) = _
    generalize sigma cmp (m ((c : Thread nD τ).loc main_arg3)) k = s
    rfl
  · rw [after1_v19, after0_v19]
    exact congrFun (show transpose S4096x4096 [1, 0]
        (Cert.ReferenceIdeal.Read.val_main_v27 (F := Ideal) (m ((c : Thread nD τ).loc main_arg1)) (m ((c : Thread nD τ).loc main_arg2)))
        transposes_S4096x4096_S4096x4096_1_0
        = Cert.ReferenceIdeal.Read.val_main_v28 (F := Ideal) (m ((c : Thread nD τ).loc main_arg1)) (m ((c : Thread nD τ).loc main_arg2)) from rfl) _

/-- The bias row the region finds at (0, o) is the bias at o. -/
theorem V_b (c : Dev nD) (o : Fin 4096) :
    (V m c main_v32 : S1x4096.Idx → EReal) (ix2 (0 : Fin 1) o) = m ((c : Thread nD τ).loc main_arg4) (ix1 o) := by
  have e : (V m c main_v32 : S1x4096.Idx → EReal)
      = shapeCast S1x4096 (m ((c : Thread nD τ).loc main_arg4)) shapeCasts_S4096_S1x4096 := by
    dsimp only [V, V0]
    simp only [hostOps0, hostOps0_1, hostOps0_2, List.flatten_cons, List.flatten_nil, List.append_nil, List.cons_append, List.nil_append]
    after_results
    rfl
  rw [e]
  refine shapeCast_apply _ shapeCasts_S4096_S1x4096 _ (ix1 o) ?_
  rw [Shape.rowMajor_val_one, Shape.rowMajor_val_two]
  show o.val = (0 : Fin 1).val * 4096 + o.val
  simp

end Cert.KernelHost

end
-- ==== Proof.KernelRun.lean ====
/-
  The kernel program's run with its result named.

  The region's output array ends at the product Y2 of the arrays the region finds (the accumulation over the grid);
  those arrays are the reference's own stages of the argument arrays, the weight's rows permuted by the sorting
  permutation sigma of the permutation argument (the host operations before the region); the one host operation after
  the region regroups the rows [8192] as [4, 2048]. So the program's result is that regrouping of
  Y2 (x as a matrix) (the transposed dequantized weight) (bias) sigma.
-/
import proofs.«418510_j67224828117444_1_alg».proof.Proof.Gen.KernelIdeal.Frame
import proofs.«418510_j67224828117444_1_alg».proof.Proof.Gen.ReferenceIdeal.Read
import proofs.«418510_j67224828117444_1_alg».proof.Proof.KernelAcc
import proofs.«418510_j67224828117444_1_alg».proof.Proof.KernelHost
import Idealize.ShloMosaic.Lib.ValueIdx
import Idealize.ShloMosaic.Lib.Pipeline.Value
import Idealize.ShloMosaic.Lib.StableHlo.Run
import Idealize.ShloMosaic.Lib.Tactic

noncomputable section

namespace Cert.KernelRun

open Idealize.ShloMosaic Idealize.ShloMosaic.TcCoe Idealize.ShloMosaic.ValueIdx Idealize.SL.Sem
open Cert.KernelIdeal Cert.KernelIdeal.Gen Cert.SortInverse Cert.Contraction

variable (m : (ℓ : Loc nD τ sig) → Buf (Elt Ideal) ℓ) (ρ : Dev nD → PrngReg)

/-- The product with the permuted weight plus the bias, of the argument arrays. -/
def product (cmp : BitVec 32 → BitVec 32 → BitVec 1) (c : Dev nD) : S8192x4096.Idx → EReal :=
  Y2 (Cert.ReferenceIdeal.Read.val_main_v0 (F := Ideal) (m ((c : Thread nD τ).loc main_arg0)))
    (Cert.ReferenceIdeal.Read.val_main_v28 (F := Ideal) (m ((c : Thread nD τ).loc main_arg1)) (m ((c : Thread nD τ).loc main_arg2)))
    (m ((c : Thread nD τ).loc main_arg4)) (sigma cmp (m ((c : Thread nD τ).loc main_arg3)))

/-- The program's result: that product with its rows regrouped as [4, 2048]. -/
def result (cmp : BitVec 32 → BitVec 32 → BitVec 1) (c : Dev nD) : Buf (Elt Ideal) ((c : Thread nD τ).loc main_v34) :=
  shapeCast S4x2048x4096 (product m cmp c) shapeCasts_S8192x4096_S4x2048x4096

/-- The one host operation after the region reshapes the region's output array. -/
theorem tail_v34 (c : Dev nD) :
    Pipeline.afterTail₀ cfgs (dats m) 0 (V0 m) [hostOps1] c main_v34
      = shapeCast S4x2048x4096 ((dats m 0 c).arrAt 3 cfg0.N) shapeCasts_S8192x4096_S4x2048x4096 := by
  unfold Pipeline.afterTail₀
  show StableHlo.after hostOps1 _ (Proc.devRef .tc main_v34) = _
  after_results
  have e : Pipeline.withArrays spec0 c (V0 m c) (fun w => (dats m 0 c).arrAt w cfg0.N) (Proc.devRef .tc main_v33)
      = (dats m 0 c).arrAt 3 cfg0.N :=
    Pipeline.withArrays_arr spec0 launch0.win.arr_inj c (V0 m c) (fun w => (dats m 0 c).arrAt w cfg0.N) 3
  funext i
  show shapeCast S4x2048x4096 (Pipeline.withArrays spec0 c (V0 m c) (fun w => (dats m 0 c).arrAt w cfg0.N)
    (Proc.devRef .tc main_v33)) shapeCasts_S8192x4096_S4x2048x4096 i = _
  rw [e]

/-- The kernel program's run, read: the result at the product of the argument arrays with its rows regrouped, and
    every argument array unchanged, when the permutation argument sorts to the identity table. -/
theorem run (cmp : BitVec 32 → BitVec 32 → BitVec 1)
    (hc : ∀ a b : BitVec 32 × BitVec 32, comparator_i32_i32_d0 a b = cmp a.1 b.1)
    (hsort : ∀ (c : Dev nD) (j : S4096.Idx),
      Host.sort S4096 0 cmp (m ((c : Thread nD τ).loc main_arg3)) j = iotaInDim S4096 32 0 j) :
    θ_run defs (onTc (τ := τ) (main (F := Ideal))) ⟨m, fun _ => 0, ρ⟩ (fun r => ∀ c : Dev nD,
      r.2.mem ((c.tc : Thread nD τ).loc main_v34) = result m cmp c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v34 (Pipeline.mem_restRefs_of main_v34 (by decide) (by decide))).trans
        ((tail_v34 m c).trans (congrArg (fun v => shapeCast S4x2048x4096 v shapeCasts_S8192x4096_S4x2048x4096)
          (Cert.KernelAcc.final m c _ _ _ _ (Cert.KernelHost.V_x m c)
            (fun k o => Cert.KernelHost.V_w m c cmp hc (hsort c) k o) (fun o => Cert.KernelHost.V_b m c o)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelRun

end
-- ==== Proof.lean ====
/-
  An int4 group-wise dequantized linear layer with an activation permutation: y = x[:, perm] @ Wᵀ + bias, with W
  dequantized from packed nibbles and per-group scales, x of shape [4, 2048, 4096] read as 8192 tokens.

  The reference gathers the activations' columns by perm and multiplies by the transposed weight. The kernel instead
  folds the permutation into the weight: it gathers the ROWS of the transposed weight by argsort(perm) and runs a tiled
  matrix product over a grid of 8 x 4 x 4 points (row block, column block, reduction step), accumulating four partial
  products in a scratch block and adding the bias at the last step.

  The two agree when perm is a permutation of 0, …, 4095, which is what the precondition's last conjunct states (perm
  stably sorted is the identity table): then argsort(perm), the sorting permutation sigma, is the inverse of perm, so

      sum over i of x(r, perm i) * Wt(i, o)  =  sum over k of x(r, k) * Wt(sigma k, o)

  by re-indexing the sum along the bijection sigma, and the four accumulated block sums are the whole sum because
  addition of extended reals is commutative and associative. Both programs compute the same dequantized weight by the
  same operations; format changes are the identity over the extended reals. No finiteness of the inputs is used.

  The frames of the two kernel programs are the generated ones; the reference's frame is its generated run with the
  result dropped; the idealization rewrote nothing.
-/
import proofs.«418510_j67224828117444_1_alg».proof.Defs
import proofs.«418510_j67224828117444_1_alg».proof.Proof.Gen.Kernel
import proofs.«418510_j67224828117444_1_alg».proof.Proof.Gen.Kernel.Frame
import proofs.«418510_j67224828117444_1_alg».proof.Proof.Gen.KernelIdeal
import proofs.«418510_j67224828117444_1_alg».proof.Proof.Gen.KernelIdeal.Frame
import proofs.«418510_j67224828117444_1_alg».proof.Proof.Gen.ReferenceIdeal
import proofs.«418510_j67224828117444_1_alg».proof.Proof.Gen.ReferenceIdeal.Run
import proofs.«418510_j67224828117444_1_alg».proof.Proof.Gen.ReferenceIdeal.Read
import proofs.«418510_j67224828117444_1_alg».proof.Proof.Gen.Pre_finite_inputs
import proofs.«418510_j67224828117444_1_alg».proof.Proof.PreDecode
import proofs.«418510_j67224828117444_1_alg».proof.Proof.RefSide
import proofs.«418510_j67224828117444_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel program ends at the product with the weight's input features permuted by the
    sorting permutation of perm, and the reference at the product with the activations' columns gathered by perm; under
    the precondition perm sorts to the identity table, and the two are one function of arguments that agree. -/
theorem algebraic : Cert.algebraic_KernelIdeal_ReferenceIdeal := by
  intro m ρ m' ρ' hpre hagree
  have hsort : ∀ (c : Dev Cert.KernelIdeal.nD) (j : Cert.KernelIdeal.S4096.Idx),
      Host.sort Cert.KernelIdeal.S4096 0 Cert.Pre_finite_inputs.comparator_i32_d0
        (m ((c.tc : Thread Cert.KernelIdeal.nD Cert.KernelIdeal.τ).loc Cert.KernelIdeal.main_arg3)) j
        = iotaInDim Cert.KernelIdeal.S4096 32 0 j :=
    fun c j => Cert.PreDecode.sorted_of_pre _ _ _ _ _ (hpre c) j
  refine ⟨fun c => Cert.KernelRun.result m Cert.Pre_finite_inputs.comparator_i32_d0 c,
    Cert.KernelRun.run m ρ Cert.Pre_finite_inputs.comparator_i32_d0 (fun _ _ => rfl) hsort, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2]
  exact Cert.RefSide.result_eq Cert.Pre_finite_inputs.comparator_i32_d0 _ _ _ _ _ (hsort c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
